-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x64 .f32) (main_arg2 : FVec F S192x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S1x64 : Shape := ⟨2, ![1, 64]⟩
abbrev S3200x64 : Shape := ⟨2, ![3200, 64]⟩
abbrev S3200x192 : Shape := ⟨2, ![3200, 192]⟩
abbrev S3200x128 : Shape := ⟨2, ![3200, 128]⟩
abbrev S5000x64 : Shape := ⟨2, ![5000, 64]⟩
abbrev S5000x128 : Shape := ⟨2, ![5000, 128]⟩

abbrev nBuf : Space → Nat
  | .hbm => 40
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S1x128, .f32⟩
  | .hbm, ⟨31, _⟩ => ⟨S1x64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S1x128, .f32⟩
  | .hbm, ⟨38, _⟩ => ⟨S1x64, .f32⟩
  | .hbm, ⟨39, _⟩ => ⟨S50000x64, .f32⟩
  | .local _ .vmem, ⟨0, _⟩ => ⟨S3200x64, .f32⟩
  | .local _ .vmem, ⟨1, _⟩ => ⟨S3200x64, .f32⟩
  | .local _ .vmem, ⟨2, _⟩ => ⟨S3200x64, .f32⟩
  | .local _ .vmem, ⟨3, _⟩ => ⟨S3200x64, .f32⟩
  | .local _ .vmem, ⟨4, _⟩ => ⟨S3200x64, .f32⟩
  | .local _ .vmem, ⟨5, _⟩ => ⟨S3200x64, .f32⟩
  | .local _ .vmem, ⟨6, _⟩ => ⟨S192x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S3200x64, .f32⟩
  | .local _ .vmem, ⟨11, _⟩ => ⟨S3200x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S128x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  shapeCasts_S64_S1x64 : S64.ShapeCasts S1x64
  inb_S3200x64_S3200x64_0_0 : ∀ a, (![0, 0] : Fin 2 → Nat) a + S3200x64.size a ≤ S3200x64.size a
  h_S3200x64 : 0 < S3200x64.numel
  shapeCasts_S3200x64_S3200x64 : S3200x64.ShapeCasts S3200x64
  concatenates_S3200x64_S3200x64_S3200x64_S3200x192_d1 : Shape.Concatenates [S3200x64, S3200x64, S3200x64] S3200x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S3200x192_S192x128_S3200x128_1_0_0_1_n_n_wf : DotDims.WF S3200x192 S192x128 S3200x128 [1] [0] [0] [1] [] []
  dot_S3200x128_S128x64_S3200x64_1_0_0_1_n_n_wf : DotDims.WF S3200x128 S128x64 S3200x64 [1] [0] [0] [1] [] []
  scatter_S50000x64_S800000x1_S800000x64_1_0_0_1_wf : ScatterDims.WF S50000x64 S800000x1 S800000x64 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x64.size a ≤ S800000x64.size a
  hwx0_0 : ∀ i : grid0.Coords, EltTy.bits .f32 = 32 ∨ (Rect.block (s := S800000x64) S3200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x64.size a ≤ S800000x64.size a
  hwx0_1 : ∀ i : grid0.Coords, EltTy.bits .f32 = 32 ∨ (Rect.block (s := S800000x64) S3200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x64.size a ≤ S800000x64.size a
  hwx0_2 : ∀ i : grid0.Coords, EltTy.bits .f32 = 32 ∨ (Rect.block (s := S800000x64) S3200x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x128.size a ≤ S192x128.size a
  hwx0_3 : ∀ i : grid0.Coords, EltTy.bits .f32 = 32 ∨ (Rect.block (s := S192x128) S192x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x64.size a ≤ S800000x64.size a
  hwx0_7 : ∀ i : grid0.Coords, EltTy.bits .f32 = 32 ∨ (Rect.block (s := S800000x64) S3200x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S3200x192_S192x128_S3200x128_1_0_0_1_n_n : DotDims S3200x192 S192x128 S3200x128 where
  lhsContracting := [1]
  rhsContracting := [0]
  lhsNonContracting := [0]
  rhsNonContracting := [1]
  lhsBatch := []
  rhsBatch := []
  wf := dot_S3200x192_S192x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg1) S3200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S3200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S3200x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x192, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  Message passing on a graph, as mathematics over the extended reals.

  An edge's new feature row is a two-layer perceptron (a rectifier between the layers) of the row obtained by
  laying its own 64 features beside the 64 features of its receiver node and the 64 of its sender node; a node's
  new row is the same kind of perceptron of its aggregated incoming-edge row beside its own row. This module
  states that row function once, on plain functions of finite indices, and the two whole-array stages built from it.
  Nothing here mentions a program: both programs are shown to compute these functions.
-/
import Idealize.ShloMosaic.PureOps.Ideal
import Idealize.ShloMosaic.Lib.ValueIdx

noncomputable section

namespace Cert.MessagePassing

open Idealize.ShloMosaic Idealize.ShloMosaic.ValueIdx

/-- A matrix of extended reals with `r` rows and `c` columns, indexed as the programs index their arrays. -/
abbrev Mat (r c : Nat) : Type := (⟨2, ![r, c]⟩ : Shape).Idx → EReal

/-- Row `p` of a matrix, as a function of the column. -/
def row {r c : Nat} (x : Mat r c) (p : Fin r) : Fin c → EReal := fun k => x (ix2 p k)

/-- Three rows of 64 entries laid side by side: one row of 192. -/
def join3 (a b c : Fin 64 → EReal) (k : Fin 192) : EReal :=
  if h : k.val < 64 then a ⟨k.val, h⟩
  else if h2 : k.val < 128 then b ⟨k.val - 64, by omega⟩
  else c ⟨k.val - 128, by omega⟩

/-- Two rows of 64 entries laid side by side: one row of 128. -/
def join2 (a b : Fin 64 → EReal) (k : Fin 128) : EReal :=
  if h : k.val < 64 then a ⟨k.val, h⟩ else b ⟨k.val - 64, by omega⟩

/-- One row `x` through a two-layer perceptron: `max (x · W₁ + b₁) 0 · W₂ + b₂`, entry `j` of the result.
    The zero of the rectifier is kept as the float word both programs write. -/
def perceptron {K H D : Nat} (x : Fin K → EReal) (W1 : Fin K → Fin H → EReal) (b1 : Fin H → EReal)
    (W2 : Fin H → Fin D → EReal) (b2 : Fin D → EReal) (j : Fin D) : EReal :=
  (∑ h : Fin H, max ((∑ k : Fin K, x k * W1 k h) + b1 h) (Ideal.ofBits .f32 0x00000000#32) * W2 h j) + b2 j

/-- The edge stage on whole arrays: row `e` of the result is the perceptron of
    `[edges e | receiver's row e | sender's row e]`. -/
def edgeStage {E : Nat} (edges rcv snd : Mat E 64) (W1 : Mat 192 128) (b1 : Fin 128 → EReal) (W2 : Mat 128 64)
    (b2 : Fin 64 → EReal) : Mat E 64 :=
  fun i => perceptron (join3 (row edges ⟨(i 0).val, (i 0).isLt⟩) (row rcv ⟨(i 0).val, (i 0).isLt⟩) (row snd ⟨(i 0).val, (i 0).isLt⟩))
    (fun k h => W1 (ix2 k h)) b1 (fun h j => W2 (ix2 h j)) b2 ⟨(i 1).val, (i 1).isLt⟩

/-- The node stage on whole arrays: row `n` of the result is the perceptron of `[aggregate n | nodes n]`. -/
def nodeStage {N : Nat} (agg nodes : Mat N 64) (W1 : Mat 128 128) (b1 : Fin 128 → EReal) (W2 : Mat 128 64)
    (b2 : Fin 64 → EReal) : Mat N 64 :=
  fun i => perceptron (join2 (row agg ⟨(i 0).val, (i 0).isLt⟩) (row nodes ⟨(i 0).val, (i 0).isLt⟩))
    (fun k h => W1 (ix2 k h)) b1 (fun h j => W2 (ix2 h j)) b2 ⟨(i 1).val, (i 1).isLt⟩

end Cert.MessagePassing

end
-- ==== Proof.LibJoin.lean ====
/-
  Rows laid side by side, read at an index, for any number of rows.

  Concatenating three `R × 64` matrices along the columns gives an `R × 192` matrix whose row `p` is the three
  rows `p` laid side by side: column `k` falls in the first, second or third piece as `k < 64`, `k < 128` or not,
  and reads that piece at column `k`, `k - 64`, `k - 128`. The same for two pieces and 128 columns.
-/
import Idealize.ShloMosaic.Lib.Pipeline.Value
import proofs.«165698_j14096082665507_1_alg».proof.Proof.Spec

noncomputable section

namespace Cert.LibJoin

open Idealize.ShloMosaic Idealize.ShloMosaic.ValueIdx Cert.MessagePassing

variable {R : Nat}

/-- Three matrices side by side, at entry `(p, k)`. -/
theorem concat3_read (a b c : Mat R 64)
    (h : Shape.Concatenates [(⟨2, ![R, 64]⟩ : Shape), (⟨2, ![R, 64]⟩ : Shape), (⟨2, ![R, 64]⟩ : Shape)] (⟨2, ![R, 192]⟩ : Shape) 1)
    (p : Fin R) (k : Fin 192) :
    concatenate (⟨2, ![R, 192]⟩ : Shape) 1 [⟨(⟨2, ![R, 64]⟩ : Shape), a⟩, ⟨(⟨2, ![R, 64]⟩ : Shape), b⟩, ⟨(⟨2, ![R, 64]⟩ : Shape), c⟩] h (ix2 p k)
      = join3 (row a p) (row b p) (row c p) k := by
  unfold join3 row
  by_cases h1 : k.val < 64
  · rw [dif_pos h1]
    refine concatenate_apply_piece (t := (⟨2, ![R, 192]⟩ : Shape)) (1 : Fin 2) [⟨(⟨2, ![R, 64]⟩ : Shape), a⟩, ⟨(⟨2, ![R, 64]⟩ : Shape), b⟩, ⟨(⟨2, ![R, 64]⟩ : Shape), c⟩] h (ix2 p k) 0 (by show (0 : Nat) < 3; omega) (⟨2, ![R, 64]⟩ : Shape) a rfl rfl 0 rfl
      (ix2 p ⟨k.val, h1⟩) (fun b hb => ?_) (by show 0 + k.val = k.val; omega)
    match b with
    | ⟨0, _⟩ => rfl
    | ⟨1, _⟩ => exact absurd rfl hb
  · rw [dif_neg h1]
    by_cases h2 : k.val < 128
    · rw [dif_pos h2]
      refine concatenate_apply_piece (t := (⟨2, ![R, 192]⟩ : Shape)) (1 : Fin 2) [⟨(⟨2, ![R, 64]⟩ : Shape), a⟩, ⟨(⟨2, ![R, 64]⟩ : Shape), b⟩, ⟨(⟨2, ![R, 64]⟩ : Shape), c⟩] h (ix2 p k) 1 (by show (1 : Nat) < 3; omega) (⟨2, ![R, 64]⟩ : Shape) b rfl rfl 64 (by simp)
        (ix2 p ⟨k.val - 64, by omega⟩) (fun b hb => ?_) (by show 64 + (k.val - 64) = k.val; omega)
      match b with
      | ⟨0, _⟩ => rfl
      | ⟨1, _⟩ => exact absurd rfl hb
    · rw [dif_neg h2]
      have hk : k.val < 192 := k.isLt
      refine concatenate_apply_piece (t := (⟨2, ![R, 192]⟩ : Shape)) (1 : Fin 2) [⟨(⟨2, ![R, 64]⟩ : Shape), a⟩, ⟨(⟨2, ![R, 64]⟩ : Shape), b⟩, ⟨(⟨2, ![R, 64]⟩ : Shape), c⟩] h (ix2 p k) 2 (by show (2 : Nat) < 3; omega) (⟨2, ![R, 64]⟩ : Shape) c rfl rfl 128 (by simp)
        (ix2 p ⟨k.val - 128, by omega⟩) (fun b hb => ?_) (by show 128 + (k.val - 128) = k.val; omega)
      match b with
      | ⟨0, _⟩ => rfl
      | ⟨1, _⟩ => exact absurd rfl hb

/-- Two matrices side by side, at entry `(p, k)`. -/
theorem concat2_read (a b : Mat R 64)
    (h : Shape.Concatenates [(⟨2, ![R, 64]⟩ : Shape), (⟨2, ![R, 64]⟩ : Shape)] (⟨2, ![R, 128]⟩ : Shape) 1)
    (p : Fin R) (k : Fin 128) :
    concatenate (⟨2, ![R, 128]⟩ : Shape) 1 [⟨(⟨2, ![R, 64]⟩ : Shape), a⟩, ⟨(⟨2, ![R, 64]⟩ : Shape), b⟩] h (ix2 p k)
      = join2 (row a p) (row b p) k := by
  unfold join2 row
  by_cases h1 : k.val < 64
  · rw [dif_pos h1]
    refine concatenate_apply_piece (t := (⟨2, ![R, 128]⟩ : Shape)) (1 : Fin 2) [⟨(⟨2, ![R, 64]⟩ : Shape), a⟩, ⟨(⟨2, ![R, 64]⟩ : Shape), b⟩] h (ix2 p k) 0 (by show (0 : Nat) < 2; omega) (⟨2, ![R, 64]⟩ : Shape) a rfl rfl 0 rfl
      (ix2 p ⟨k.val, h1⟩) (fun b hb => ?_) (by show 0 + k.val = k.val; omega)
    match b with
    | ⟨0, _⟩ => rfl
    | ⟨1, _⟩ => exact absurd rfl hb
  · rw [dif_neg h1]
    have hk : k.val < 128 := k.isLt
    refine concatenate_apply_piece (t := (⟨2, ![R, 128]⟩ : Shape)) (1 : Fin 2) [⟨(⟨2, ![R, 64]⟩ : Shape), a⟩, ⟨(⟨2, ![R, 64]⟩ : Shape), b⟩] h (ix2 p k) 1 (by show (1 : Nat) < 2; omega) (⟨2, ![R, 64]⟩ : Shape) b rfl rfl 64 (by simp)
      (ix2 p ⟨k.val - 64, by omega⟩) (fun b hb => ?_) (by show 64 + (k.val - 64) = k.val; omega)
    match b with
    | ⟨0, _⟩ => rfl
    | ⟨1, _⟩ => exact absurd rfl hb

end Cert.LibJoin

end
-- ==== Proof.LibMatmul.lean ====
/-
  A plain matrix product read at an index, for any extents.

  A product of an `R × K` matrix with a `K × C` matrix whose dimension numbers contract the left operand's columns
  with the right operand's rows and have no batch axes is, at entry `(p, q)` and over the extended reals,
  the finite sum over `k` of `l (p, k) · r (k, q)`; into a zero accumulator nothing is added to it.
-/
import Idealize.ShloMosaic.PureOps.Ideal.Laws
import Idealize.ShloMosaic.Lib.ValueIdx

noncomputable section

namespace Cert.LibMatmul

open Idealize.ShloMosaic Idealize.ShloMosaic.ValueIdx

variable {R K C : Nat}

/-- The operand indices of a plain product at result entry `(p, q)` and contraction position `k`:
    `(p, k)` on the left, `(k, q)` on the right. -/
theorem plain_operand_indices (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (p : Fin R) (q : Fin C) (κ : d.contr.Idx) (k : Fin K)
    (hκ : (κ ⟨0, by rw [d.rank_contr, hlc]; exact Nat.one_pos⟩).val = k.val) :
    d.lhsIdx (ix2 p q) κ = ix2 p k ∧ d.rhsIdx (ix2 p q) κ = ix2 k q := by
  have key : ∀ (j : (⟨2, ![R, C]⟩ : Shape).Idx) (n n' : Nat) (hn : n < 2) (hn' : n' < 2), n = n' →
      (j ⟨n, hn⟩).val = (j ⟨n', hn'⟩).val := fun j n n' hn hn' e => by subst e; rfl
  constructor
  · funext a; apply Fin.ext
    match a with
    | ⟨0, _⟩ =>
      show (d.lhsIdx (ix2 p q) κ (0 : Fin 2)).val = p.val
      unfold DotDims.lhsIdx
      rw [dif_neg (by rw [hlb]; exact List.not_mem_nil), dif_pos (by rw [hln]; exact List.mem_singleton.mpr rfl)]
      simp only [Fin.val_cast]
      exact (key (ix2 p q) _ 0 _ (by decide) (by simp [hlb, hln])).trans rfl
    | ⟨1, _⟩ =>
      show (d.lhsIdx (ix2 p q) κ (1 : Fin 2)).val = k.val
      exact (d.lhsIdx_val_of_single hlc (ix2 p q) κ).trans hκ
  · funext a; apply Fin.ext
    match a with
    | ⟨0, _⟩ =>
      show (d.rhsIdx (ix2 p q) κ (0 : Fin 2)).val = k.val
      exact (d.rhsIdx_val_of_single hrc (ix2 p q) κ).trans hκ
    | ⟨1, _⟩ =>
      show (d.rhsIdx (ix2 p q) κ (1 : Fin 2)).val = q.val
      unfold DotDims.rhsIdx
      rw [dif_neg (by rw [hrb]; exact List.not_mem_nil), dif_pos (by rw [hrn]; exact List.mem_singleton.mpr rfl)]
      simp only [Fin.val_cast]
      exact (key (ix2 p q) _ 1 _ (by decide) (by simp [hlb, hln, hrn])).trans rfl

/-- A plain product into the zero accumulator, at entry `(p, q)`: the sum over the contracted extent. -/
theorem matmul_rows_cols {φ₁ φ₂ : FTy} (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (l : FVec Ideal (⟨2, ![R, K]⟩ : Shape) φ₁) (r : FVec Ideal (⟨2, ![K, C]⟩ : Shape) φ₂)
    (p : Fin R) (q : Fin C) :
    FloatOps.matmul d prec l r (constant (⟨2, ![R, C]⟩ : Shape) .f32 0x00000000#32) (ix2 p q)
      = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  obtain ⟨el, er⟩ := plain_operand_indices d hlc hrc hln hrn hlb hrb p q ((contrEquiv1 d K hr hs).symm k) k
    (contrEquiv1_symm_val d K hr hs k)
  rw [el, er]

end Cert.LibMatmul

end
-- ==== Proof.LibAffine.lean ====
/-
  One dense layer read at an index, for any extents.

  A layer multiplies an `R × K` matrix by a `K × C` matrix (both first cast to a narrower float format, which over
  the extended reals changes nothing), starts from a zero accumulator, and adds a bias given as a `1 × C` matrix
  broadcast along the rows. At entry `(p, q)` that is `(∑ k, x (p, k) · W (k, q)) + b (0, q)`.
-/
import Idealize.ShloMosaic.Lib.Pipeline.Value
import proofs.«165698_j14096082665507_1_alg».proof.Proof.LibMatmul

noncomputable section

namespace Cert.LibAffine

open Idealize.ShloMosaic Idealize.ShloMosaic.ValueIdx

variable {R K C : Nat}

/-- A one-row matrix cast to its own shape and broadcast along `R` rows reads, at `(p, q)`, its entry `(0, q)`. -/
theorem bias_read (b : FVec Ideal (⟨2, ![1, C]⟩ : Shape) .f32)
    (hsc : (⟨2, ![1, C]⟩ : Shape).ShapeCasts (⟨2, ![1, C]⟩ : Shape))
    (hbc : (⟨2, ![1, C]⟩ : Shape).Broadcasts (⟨2, ![R, C]⟩ : Shape)) (p : Fin R) (q : Fin C) :
    broadcastTo (⟨2, ![R, C]⟩ : Shape) (shapeCast (⟨2, ![1, C]⟩ : Shape) b hsc) hbc (ix2 p q) = b (ix2 0 q) := by
  rw [shapeCast_self]
  refine broadcastTo_apply b hbc (ix2 p q) (ix2 0 q) (fun a => ?_)
  match a with
  | ⟨0, _⟩ => show (0 : Nat) = if (1 : Nat) = 1 then 0 else p.val; rw [if_pos rfl]
  | ⟨1, _⟩ =>
    show q.val = if C = 1 then 0 else q.val
    split
    · have := q.isLt; omega
    · rfl

/-- A dense layer at entry `(p, q)`. -/
theorem affine_read (d : DotDims (⟨2, ![R, K]⟩ : Shape) (⟨2, ![K, C]⟩ : Shape) (⟨2, ![R, C]⟩ : Shape))
    (hlc : d.lhsContracting = [1]) (hrc : d.rhsContracting = [0])
    (hln : d.lhsNonContracting = [0]) (hrn : d.rhsNonContracting = [1])
    (hlb : d.lhsBatch = []) (hrb : d.rhsBatch = [])
    (hbits : FTy.bits .bf16 < FTy.bits .f32)
    (hsc : (⟨2, ![1, C]⟩ : Shape).ShapeCasts (⟨2, ![1, C]⟩ : Shape))
    (hbc : (⟨2, ![1, C]⟩ : Shape).Broadcasts (⟨2, ![R, C]⟩ : Shape))
    (x : FVec Ideal (⟨2, ![R, K]⟩ : Shape) .f32) (W : FVec Ideal (⟨2, ![K, C]⟩ : Shape) .f32)
    (b : FVec Ideal (⟨2, ![1, C]⟩ : Shape) .f32) (p : Fin R) (q : Fin C) :
    addf (matmul d none (truncf .bf16 x hbits) (truncf .bf16 W hbits) (constant (⟨2, ![R, C]⟩ : Shape) .f32 0x00000000#32))
        (broadcastTo (⟨2, ![R, C]⟩ : Shape) (shapeCast (⟨2, ![1, C]⟩ : Shape) b hsc) hbc) (ix2 p q)
      = (∑ k : Fin K, x (ix2 p k) * W (ix2 k q)) + b (ix2 0 q) := by
  rw [addf_apply, bias_read b hsc hbc p q]
  exact congrArg (· + b (ix2 0 q))
    (Cert.LibMatmul.matmul_rows_cols d hlc hrc hln hrn hlb hrb none (truncf .bf16 x hbits) (truncf .bf16 W hbits) p q)

end Cert.LibAffine

end
-- ==== Proof.Bodies.lean ====
/-
  What each kernel body stores, entry by entry.

  The edge body stores, at row `p` and column `q` of its block, the two-layer perceptron of the row obtained by
  laying row `p` of its three input blocks side by side; the node body the same with two input blocks. Each layer
  is a dense layer (a matrix product from a zero accumulator plus a broadcast bias row), the rectifier between them
  is an entrywise maximum with zero, and the casts to a narrower float format change nothing over the extended reals.
-/
import proofs.«165698_j14096082665507_1_alg».proof.Proof.Gen.KernelIdeal.Skeleton
import proofs.«165698_j14096082665507_1_alg».proof.Proof.Spec
import proofs.«165698_j14096082665507_1_alg».proof.Proof.LibJoin
import proofs.«165698_j14096082665507_1_alg».proof.Proof.LibAffine

noncomputable section

namespace Cert.KernelIdeal.Bodies

open Cert.KernelIdeal Cert.KernelIdeal.Gen Cert.MessagePassing
open Idealize.ShloMosaic Idealize.ShloMosaic.ValueIdx

/-- The edge body's stored value at `(p, q)`: the perceptron of `[x0 p | x1 p | x3 p]`. -/
theorem edge_payload (x0 x1 x3 : Vec Ideal S3200x64 .f32) (W1 : Vec Ideal S192x128 .f32) (b1 : Vec Ideal S1x128 .f32)
    (W2 : Vec Ideal S128x64 .f32) (b2 : Vec Ideal S1x64 .f32) (p : Fin 3200) (q : Fin 64) :
    k0_pay1 (F := Ideal) x0 x1 x3 W1 b1 W2 b2 (ix2 p q)
      = perceptron (join3 (row x0 p) (row x1 p) (row x3 p)) (fun k h => W1 (ix2 k h)) (fun h => b1 (ix2 0 h))
          (fun h j => W2 (ix2 h j)) (fun j => b2 (ix2 0 j)) q := by
  unfold k0_pay1 perceptron
  refine (Cert.LibAffine.affine_read dot_S3200x128_S128x64_S3200x64_1_0_0_1_n_n rfl rfl rfl rfl rfl rfl _ _ _ _ W2 b2 p q).trans ?_
  refine congrArg (· + b2 (ix2 0 q)) (Finset.sum_congr rfl fun h _ => congrArg (· * W2 (ix2 h q)) ?_)
  rw [maximumf_apply]
  refine congrArg₂ max ?_ rfl
  refine (Cert.LibAffine.affine_read dot_S3200x192_S192x128_S3200x128_1_0_0_1_n_n rfl rfl rfl rfl rfl rfl _ _ _ _ W1 b1 p h).trans ?_
  refine congrArg (· + b1 (ix2 0 h)) (Finset.sum_congr rfl fun k _ => congrArg (· * W1 (ix2 k h)) ?_)
  rw [shapeCast_self, shapeCast_self]
  exact Cert.LibJoin.concat3_read x0 x1 x3 _ p k

/-- The node body's stored value at `(p, q)`: the perceptron of `[x0 p | x2 p]`. -/
theorem node_payload (x0 x2 : Vec Ideal S5000x64 .f32) (W1 : Vec Ideal S128x128 .f32) (b1 : Vec Ideal S1x128 .f32)
    (W2 : Vec Ideal S128x64 .f32) (b2 : Vec Ideal S1x64 .f32) (p : Fin 5000) (q : Fin 64) :
    k1_pay1 (F := Ideal) x0 x2 W1 b1 W2 b2 (ix2 p q)
      = perceptron (join2 (row x0 p) (row x2 p)) (fun k h => W1 (ix2 k h)) (fun h => b1 (ix2 0 h))
          (fun h j => W2 (ix2 h j)) (fun j => b2 (ix2 0 j)) q := by
  unfold k1_pay1 perceptron
  refine (Cert.LibAffine.affine_read dot_S5000x128_S128x64_S5000x64_1_0_0_1_n_n rfl rfl rfl rfl rfl rfl _ _ _ _ W2 b2 p q).trans ?_
  refine congrArg (· + b2 (ix2 0 q)) (Finset.sum_congr rfl fun h _ => congrArg (· * W2 (ix2 h q)) ?_)
  rw [maximumf_apply]
  refine congrArg₂ max ?_ rfl
  refine (Cert.LibAffine.affine_read dot_S5000x128_S128x128_S5000x128_1_0_0_1_n_n rfl rfl rfl rfl rfl rfl _ _ _ _ W1 b1 p h).trans ?_
  refine congrArg (· + b1 (ix2 0 h)) (Finset.sum_congr rfl fun k _ => congrArg (· * W1 (ix2 k h)) ?_)
  rw [shapeCast_self]
  exact Cert.LibJoin.concat2_read x0 x2 _ p k

end Cert.KernelIdeal.Bodies

end
-- ==== Proof.Regions.lean ====
/-
  What each of the two kernel regions leaves in its output array.

  A region runs its body once per grid point on one block of rows of each row-tiled operand (3200 edge rows, or 5000
  node rows) and on the whole of each weight and bias operand, and writes the body's result back as the same block of
  rows of the output. The body's result at a row is the perceptron of that row's joined inputs, so block by block the
  output array is the whole-array stage of `Cert.MessagePassing` applied to the arrays as the region finds them; the
  blocks tile the output's rows (row `r` lies in block `r / 3200`, or `r / 5000`), so the whole array ends at that stage.
-/
import proofs.«165698_j14096082665507_1_alg».proof.Proof.Gen.KernelIdeal.Frame
import proofs.«165698_j14096082665507_1_alg».proof.Proof.Bodies
import Idealize.ShloMosaic.Lib.Pipeline.Value

set_option maxRecDepth 16384

noncomputable section

namespace Cert.KernelIdeal.Regions

open Cert.KernelIdeal Cert.KernelIdeal.Gen Cert.KernelIdeal.Bodies Cert.MessagePassing
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The edge region -/

/-- The edge region's index maps over its 250 points: the row-tiled operands and the output sit at block `t` of
    the rows, the weights and biases at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- One entry of one block: if the three row blocks hold rows `T·3200 + p` of the arrays `e r s` and the weight and
    bias blocks hold the arrays `W1 b1 W2 b2`, the body's value at `j` is the edge stage at the array index `i`
    with row `T·3200 + j₀` and column `j₁`. -/
theorem edge_point (e r s : Mat 800000 64) (W1 : Mat 192 128) (b1 : Mat 1 128) (W2 : Mat 128 64) (b2 : Mat 1 64)
    (x0 x1 x3 : Vec Ideal S3200x64 .f32) (w1 : Vec Ideal S192x128 .f32) (c1 : Vec Ideal S1x128 .f32)
    (w2 : Vec Ideal S128x64 .f32) (c2 : Vec Ideal S1x64 .f32) (T : Nat) (hT : T < 250)
    (h0 : ∀ (p : Fin 3200) (k : Fin 64), x0 (ix2 p k) = e (ix2 ⟨T * 3200 + p.val, by have := p.isLt; omega⟩ k))
    (h1 : ∀ (p : Fin 3200) (k : Fin 64), x1 (ix2 p k) = r (ix2 ⟨T * 3200 + p.val, by have := p.isLt; omega⟩ k))
    (h3 : ∀ (p : Fin 3200) (k : Fin 64), x3 (ix2 p k) = s (ix2 ⟨T * 3200 + p.val, by have := p.isLt; omega⟩ k))
    (hw1 : ∀ (k : Fin 192) (h : Fin 128), w1 (ix2 k h) = W1 (ix2 k h)) (hc1 : ∀ h : Fin 128, c1 (ix2 0 h) = b1 (ix2 0 h))
    (hw2 : ∀ (h : Fin 128) (q : Fin 64), w2 (ix2 h q) = W2 (ix2 h q)) (hc2 : ∀ q : Fin 64, c2 (ix2 0 q) = b2 (ix2 0 q))
    (j : S3200x64.Idx) (i : (⟨2, ![800000, 64]⟩ : Shape).Idx)
    (hi0 : (i 0).val = T * 3200 + (j 0).val) (hi1 : (i 1).val = (j 1).val) :
    k0_pay1 (F := Ideal) x0 x1 x3 w1 c1 w2 c2 j
      = edgeStage e r s W1 (fun h => b1 (ix2 0 h)) W2 (fun q => b2 (ix2 0 q)) i := by
  obtain ⟨p, q, rfl⟩ : ∃ (p : Fin 3200) (q : Fin 64), j = ix2 p q := ⟨j 0, j 1, eq_ix2 j⟩
  rw [edge_payload]
  unfold edgeStage
  have hp : (⟨(i 0).val, (i 0).isLt⟩ : Fin 800000) = ⟨T * 3200 + p.val, by have := p.isLt; omega⟩ := Fin.ext hi0
  have hq : (⟨(i 1).val, (i 1).isLt⟩ : Fin 64) = q := Fin.ext hi1
  rw [hp, hq]
  have e0 : row x0 p = row e ⟨T * 3200 + p.val, by have := p.isLt; omega⟩ := funext fun k => h0 p k
  have e1 : row x1 p = row r ⟨T * 3200 + p.val, by have := p.isLt; omega⟩ := funext fun k => h1 p k
  have e3 : row x3 p = row s ⟨T * 3200 + p.val, by have := p.isLt; omega⟩ := funext fun k => h3 p k
  have f1 : (fun (k : Fin 192) (h : Fin 128) => w1 (ix2 k h)) = fun k h => W1 (ix2 k h) := funext fun k => funext fun h => hw1 k h
  have f2 : (fun (h : Fin 128) (q : Fin 64) => w2 (ix2 h q)) = fun h q => W2 (ix2 h q) := funext fun h => funext fun q => hw2 h q
  have g1 : (fun h : Fin 128 => c1 (ix2 0 h)) = fun h => b1 (ix2 0 h) := funext hc1
  have g2 : (fun q : Fin 64 => c2 (ix2 0 q)) = fun q => b2 (ix2 0 q) := funext hc2
  rw [e0, e1, e3, f1, f2, g1, g2]

/-- What point `t` of the edge region writes back is block `t` of the edge stage of the arrays as the region finds them. -/
theorem edge_flushed (c : Dev nD) (t : Fin cfg0.N) :
    (dat0 (F := Ideal) V c).flushed 7 t = ((cfg0.win 7).blk t).view.read (Elt Ideal)
      (edgeStage (V c main_arg1) (V c main_v6) (V c main_v13) (V c main_arg2) (fun h => V c main_v14 (ix2 0 h))
        (V c main_arg4) (fun q => V c main_v15 (ix2 0 q))) := by
  show (cfg0.win 7).cut (grid0.coords t) ((dat0 V c).after 7 t) = _
  rw [after0_7]
  unfold out0_7
  rw [View.canon_unit_zero hz]
  simp only [View.ld_unit_zero (S := S3200x64) hz, View.ld_unit_zero (S := S192x128) hz, View.ld_unit_zero (S := S1x128) hz,
    View.ld_unit_zero (S := S128x64) hz, View.ld_unit_zero (S := S1x64) hz]
  have ht : t.val < 250 := lt_of_lt_of_eq t.isLt N_0
  obtain ⟨a00, a01, a10, a11, a20, a21, a30, a31, a40, a41, a50, a51, a60, a61, a70, a71⟩ := idx_facts0 t
  funext j
  refine edge_point (V c main_arg1) (V c main_v6) (V c main_v13) (V c main_arg2) (V c main_v14) (V c main_arg4) (V c main_v15)
    (iblk0 V c 0 t) (iblk0 V c 1 t) (iblk0 V c 2 t) (iblk0 V c 3 t) (iblk0 V c 4 t) (iblk0 V c 5 t) (iblk0 V c 6 t)
    t.val ht ?_ ?_ ?_ ?_ ?_ ?_ ?_ j (((cfg0.win 7).blk t).view.emb j) ?_ ?_
  · intro p k
    show V c main_arg1 (((cfg0.win 0).blk t).view.emb (ix2 p k)) = V c main_arg1 _
    refine congrArg _ (funext fun a => Fin.ext ?_)
    match a with
    | ⟨0, _⟩ => show win0_0.index t (0 : Fin 2) * 3200 + 1 * p.val = t.val * 3200 + p.val; rw [a00]; omega
    | ⟨1, _⟩ => show win0_0.index t (1 : Fin 2) * 64 + 1 * k.val = k.val; rw [a01]; omega
  · intro p k
    show V c main_v6 (((cfg0.win 1).blk t).view.emb (ix2 p k)) = V c main_v6 _
    refine congrArg _ (funext fun a => Fin.ext ?_)
    match a with
    | ⟨0, _⟩ => show win0_1.index t (0 : Fin 2) * 3200 + 1 * p.val = t.val * 3200 + p.val; rw [a10]; omega
    | ⟨1, _⟩ => show win0_1.index t (1 : Fin 2) * 64 + 1 * k.val = k.val; rw [a11]; omega
  · intro p k
    show V c main_v13 (((cfg0.win 2).blk t).view.emb (ix2 p k)) = V c main_v13 _
    refine congrArg _ (funext fun a => Fin.ext ?_)
    match a with
    | ⟨0, _⟩ => show win0_2.index t (0 : Fin 2) * 3200 + 1 * p.val = t.val * 3200 + p.val; rw [a20]; omega
    | ⟨1, _⟩ => show win0_2.index t (1 : Fin 2) * 64 + 1 * k.val = k.val; rw [a21]; omega
  · intro k h
    show V c main_arg2 (((cfg0.win 3).blk t).view.emb (ix2 k h)) = V c main_arg2 _
    refine congrArg _ (funext fun a => Fin.ext ?_)
    match a with
    | ⟨0, _⟩ => show win0_3.index t (0 : Fin 2) * 192 + 1 * k.val = k.val; rw [a30]; omega
    | ⟨1, _⟩ => show win0_3.index t (1 : Fin 2) * 128 + 1 * h.val = h.val; rw [a31]; omega
  · intro h
    show V c main_v14 (((cfg0.win 4).blk t).view.emb (ix2 0 h)) = V c main_v14 _
    refine congrArg _ (funext fun a => Fin.ext ?_)
    match a with
    | ⟨0, _⟩ => show win0_4.index t (0 : Fin 2) * 1 + 1 * 0 = 0; rw [a40]
    | ⟨1, _⟩ => show win0_4.index t (1 : Fin 2) * 128 + 1 * h.val = h.val; rw [a41]; omega
  · intro h q
    show V c main_arg4 (((cfg0.win 5).blk t).view.emb (ix2 h q)) = V c main_arg4 _
    refine congrArg _ (funext fun a => Fin.ext ?_)
    match a with
    | ⟨0, _⟩ => show win0_5.index t (0 : Fin 2) * 128 + 1 * h.val = h.val; rw [a50]; omega
    | ⟨1, _⟩ => show win0_5.index t (1 : Fin 2) * 64 + 1 * q.val = q.val; rw [a51]; omega
  · intro q
    show V c main_v15 (((cfg0.win 6).blk t).view.emb (ix2 0 q)) = V c main_v15 _
    refine congrArg _ (funext fun a => Fin.ext ?_)
    match a with
    | ⟨0, _⟩ => show win0_6.index t (0 : Fin 2) * 1 + 1 * 0 = 0; rw [a60]
    | ⟨1, _⟩ => show win0_6.index t (1 : Fin 2) * 64 + 1 * q.val = q.val; rw [a61]; omega
  · show win0_7.index t (0 : Fin 2) * 3200 + 1 * (j 0).val = t.val * 3200 + (j 0).val; rw [a70]; omega
  · show win0_7.index t (1 : Fin 2) * 64 + 1 * (j 1).val = (j 1).val; rw [a71]; omega

/-- An index of the edge output is in point `t`'s block iff each coordinate is in the block's range on its axis. -/
theorem edge_mem_blk (t : Fin cfg0.N) (i : S800000x64.Idx) :
    i ∈ ((cfg0.win 7).blk t).view.set ↔ ∀ a : Fin 2, win0_7.index t a * S3200x64.size a ≤ (i a).val ∧ (i a).val < win0_7.index t a * S3200x64.size a + S3200x64.size a := by
  show i ∈ ((View.whole main_v16).slice (win0_7.rect t)).set ↔ _
  rw [View.set_slice_whole, Rect.mem_set_unit]
  exact Iff.rfl

/-- The 250 blocks of 3200 rows tile the 800000 rows: row `r` lies in block `r / 3200`. -/
theorem edge_cover (i : S800000x64.Idx) :
    ∃ t : Fin cfg0.N, (cfg0.win 7).flush t = true ∧ i ∈ ((cfg0.win 7).blk t).view.set := by
  have hi0 : (i 0).val < 800000 := (i 0).isLt
  have hi1 : (i 1).val < 64 := (i 1).isLt
  have hN : (i 0).val / 3200 < cfg0.N := by rw [show cfg0.N = 250 from N_0]; omega
  obtain ⟨-, -, -, -, -, -, -, -, -, -, -, -, -, -, a70, a71⟩ := idx_facts0 ⟨(i 0).val / 3200, hN⟩
  refine ⟨⟨(i 0).val / 3200, hN⟩, flush0_7 _, ?_⟩
  rw [edge_mem_blk]
  intro a
  match a with
  | ⟨0, _⟩ =>
    show win0_7.index ⟨(i 0).val / 3200, hN⟩ (0 : Fin 2) * 3200 ≤ (i 0).val ∧ (i 0).val < win0_7.index ⟨(i 0).val / 3200, hN⟩ (0 : Fin 2) * 3200 + 3200
    rw [a70]; show (i 0).val / 3200 * 3200 ≤ (i 0).val ∧ (i 0).val < (i 0).val / 3200 * 3200 + 3200; omega
  | ⟨1, _⟩ =>
    show win0_7.index ⟨(i 0).val / 3200, hN⟩ (1 : Fin 2) * 64 ≤ (i 1).val ∧ (i 1).val < win0_7.index ⟨(i 0).val / 3200, hN⟩ (1 : Fin 2) * 64 + 64
    rw [a71]; omega

/-- THE EDGE REGION'S OUTPUT ARRAY after the region: the edge stage of the arrays as the region finds them. -/
theorem edge_region (c : Dev nD) :
    (dat0 (F := Ideal) V c).arrAt 7 cfg0.N
      = edgeStage (V c main_arg1) (V c main_v6) (V c main_v13) (V c main_arg2) (fun h => V c main_v14 (ix2 0 h))
          (V c main_arg4) (fun q => V c main_v15 (ix2 0 q)) :=
  (dat0 V c).arrAt_eq_of_cover 7 _ (fun t _ => edge_flushed V c t) edge_cover

/-! ## The node region -/

/-- The node region's index maps over its 10 points. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- One entry of one block of the node region. -/
theorem node_point (a n : Mat 50000 64) (W1 : Mat 128 128) (b1 : Mat 1 128) (W2 : Mat 128 64) (b2 : Mat 1 64)
    (x0 x2 : Vec Ideal S5000x64 .f32) (w1 : Vec Ideal S128x128 .f32) (c1 : Vec Ideal S1x128 .f32)
    (w2 : Vec Ideal S128x64 .f32) (c2 : Vec Ideal S1x64 .f32) (T : Nat) (hT : T < 10)
    (h0 : ∀ (p : Fin 5000) (k : Fin 64), x0 (ix2 p k) = a (ix2 ⟨T * 5000 + p.val, by have := p.isLt; omega⟩ k))
    (h2 : ∀ (p : Fin 5000) (k : Fin 64), x2 (ix2 p k) = n (ix2 ⟨T * 5000 + p.val, by have := p.isLt; omega⟩ k))
    (hw1 : ∀ (k : Fin 128) (h : Fin 128), w1 (ix2 k h) = W1 (ix2 k h)) (hc1 : ∀ h : Fin 128, c1 (ix2 0 h) = b1 (ix2 0 h))
    (hw2 : ∀ (h : Fin 128) (q : Fin 64), w2 (ix2 h q) = W2 (ix2 h q)) (hc2 : ∀ q : Fin 64, c2 (ix2 0 q) = b2 (ix2 0 q))
    (j : S5000x64.Idx) (i : (⟨2, ![50000, 64]⟩ : Shape).Idx)
    (hi0 : (i 0).val = T * 5000 + (j 0).val) (hi1 : (i 1).val = (j 1).val) :
    k1_pay1 (F := Ideal) x0 x2 w1 c1 w2 c2 j
      = nodeStage a n W1 (fun h => b1 (ix2 0 h)) W2 (fun q => b2 (ix2 0 q)) i := by
  obtain ⟨p, q, rfl⟩ : ∃ (p : Fin 5000) (q : Fin 64), j = ix2 p q := ⟨j 0, j 1, eq_ix2 j⟩
  rw [node_payload]
  unfold nodeStage
  have hp : (⟨(i 0).val, (i 0).isLt⟩ : Fin 50000) = ⟨T * 5000 + p.val, by have := p.isLt; omega⟩ := Fin.ext hi0
  have hq : (⟨(i 1).val, (i 1).isLt⟩ : Fin 64) = q := Fin.ext hi1
  rw [hp, hq]
  have e0 : row x0 p = row a ⟨T * 5000 + p.val, by have := p.isLt; omega⟩ := funext fun k => h0 p k
  have e2 : row x2 p = row n ⟨T * 5000 + p.val, by have := p.isLt; omega⟩ := funext fun k => h2 p k
  have f1 : (fun (k : Fin 128) (h : Fin 128) => w1 (ix2 k h)) = fun k h => W1 (ix2 k h) := funext fun k => funext fun h => hw1 k h
  have f2 : (fun (h : Fin 128) (q : Fin 64) => w2 (ix2 h q)) = fun h q => W2 (ix2 h q) := funext fun h => funext fun q => hw2 h q
  have g1 : (fun h : Fin 128 => c1 (ix2 0 h)) = fun h => b1 (ix2 0 h) := funext hc1
  have g2 : (fun q : Fin 64 => c2 (ix2 0 q)) = fun q => b2 (ix2 0 q) := funext hc2
  rw [e0, e2, f1, f2, g1, g2]

/-- What point `t` of the node region writes back is block `t` of the node stage of the arrays as the region finds them. -/
theorem node_flushed (c : Dev nD) (t : Fin cfg1.N) :
    (dat1 (F := Ideal) V c).flushed 6 t = ((cfg1.win 6).blk t).view.read (Elt Ideal)
      (nodeStage (V c main_v19) (V c main_arg0) (V c main_arg6) (fun h => V c main_v20 (ix2 0 h))
        (V c main_arg8) (fun q => V c main_v21 (ix2 0 q))) := by
  show (cfg1.win 6).cut (grid1.coords t) ((dat1 V c).after 6 t) = _
  rw [after1_6]
  unfold out1_6
  rw [View.canon_unit_zero hz]
  simp only [View.ld_unit_zero (S := S5000x64) hz, View.ld_unit_zero (S := S128x128) hz, View.ld_unit_zero (S := S1x128) hz,
    View.ld_unit_zero (S := S128x64) hz, View.ld_unit_zero (S := S1x64) hz]
  have ht : t.val < 10 := lt_of_lt_of_eq t.isLt N_1
  obtain ⟨a00, a01, a10, a11, a20, a21, a30, a31, a40, a41, a50, a51, a60, a61⟩ := idx_facts1 t
  funext j
  refine node_point (V c main_v19) (V c main_arg0) (V c main_arg6) (V c main_v20) (V c main_arg8) (V c main_v21)
    (iblk1 V c 0 t) (iblk1 V c 1 t) (iblk1 V c 2 t) (iblk1 V c 3 t) (iblk1 V c 4 t) (iblk1 V c 5 t)
    t.val ht ?_ ?_ ?_ ?_ ?_ ?_ j (((cfg1.win 6).blk t).view.emb j) ?_ ?_
  · intro p k
    show V c main_v19 (((cfg1.win 0).blk t).view.emb (ix2 p k)) = V c main_v19 _
    refine congrArg _ (funext fun a => Fin.ext ?_)
    match a with
    | ⟨0, _⟩ => show win1_0.index t (0 : Fin 2) * 5000 + 1 * p.val = t.val * 5000 + p.val; rw [a00]; omega
    | ⟨1, _⟩ => show win1_0.index t (1 : Fin 2) * 64 + 1 * k.val = k.val; rw [a01]; omega
  · intro p k
    show V c main_arg0 (((cfg1.win 1).blk t).view.emb (ix2 p k)) = V c main_arg0 _
    refine congrArg _ (funext fun a => Fin.ext ?_)
    match a with
    | ⟨0, _⟩ => show win1_1.index t (0 : Fin 2) * 5000 + 1 * p.val = t.val * 5000 + p.val; rw [a10]; omega
    | ⟨1, _⟩ => show win1_1.index t (1 : Fin 2) * 64 + 1 * k.val = k.val; rw [a11]; omega
  · intro k h
    show V c main_arg6 (((cfg1.win 2).blk t).view.emb (ix2 k h)) = V c main_arg6 _
    refine congrArg _ (funext fun a => Fin.ext ?_)
    match a with
    | ⟨0, _⟩ => show win1_2.index t (0 : Fin 2) * 128 + 1 * k.val = k.val; rw [a20]; omega
    | ⟨1, _⟩ => show win1_2.index t (1 : Fin 2) * 128 + 1 * h.val = h.val; rw [a21]; omega
  · intro h
    show V c main_v20 (((cfg1.win 3).blk t).view.emb (ix2 0 h)) = V c main_v20 _
    refine congrArg _ (funext fun a => Fin.ext ?_)
    match a with
    | ⟨0, _⟩ => show win1_3.index t (0 : Fin 2) * 1 + 1 * 0 = 0; rw [a30]
    | ⟨1, _⟩ => show win1_3.index t (1 : Fin 2) * 128 + 1 * h.val = h.val; rw [a31]; omega
  · intro h q
    show V c main_arg8 (((cfg1.win 4).blk t).view.emb (ix2 h q)) = V c main_arg8 _
    refine congrArg _ (funext fun a => Fin.ext ?_)
    match a with
    | ⟨0, _⟩ => show win1_4.index t (0 : Fin 2) * 128 + 1 * h.val = h.val; rw [a40]; omega
    | ⟨1, _⟩ => show win1_4.index t (1 : Fin 2) * 64 + 1 * q.val = q.val; rw [a41]; omega
  · intro q
    show V c main_v21 (((cfg1.win 5).blk t).view.emb (ix2 0 q)) = V c main_v21 _
    refine congrArg _ (funext fun a => Fin.ext ?_)
    match a with
    | ⟨0, _⟩ => show win1_5.index t (0 : Fin 2) * 1 + 1 * 0 = 0; rw [a50]
    | ⟨1, _⟩ => show win1_5.index t (1 : Fin 2) * 64 + 1 * q.val = q.val; rw [a51]; omega
  · show win1_6.index t (0 : Fin 2) * 5000 + 1 * (j 0).val = t.val * 5000 + (j 0).val; rw [a60]; omega
  · show win1_6.index t (1 : Fin 2) * 64 + 1 * (j 1).val = (j 1).val; rw [a61]; omega

/-- An index of the node output is in point `t`'s block iff each coordinate is in the block's range on its axis. -/
theorem node_mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v22).slice (win1_6.rect t)).set ↔ _
  rw [View.set_slice_whole, Rect.mem_set_unit]
  exact Iff.rfl

/-- The 10 blocks of 5000 rows tile the 50000 rows: row `r` lies in block `r / 5000`. -/
theorem node_cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have hN : (i 0).val / 5000 < cfg1.N := by rw [show cfg1.N = 10 from N_1]; omega
  obtain ⟨-, -, -, -, -, -, -, -, -, -, -, -, a60, a61⟩ := idx_facts1 ⟨(i 0).val / 5000, hN⟩
  refine ⟨⟨(i 0).val / 5000, hN⟩, flush1_6 _, ?_⟩
  rw [node_mem_blk]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [a60]; show (i 0).val / 5000 * 5000 ≤ (i 0).val ∧ (i 0).val < (i 0).val / 5000 * 5000 + 5000; omega
  | ⟨1, _⟩ =>
    show win1_6.index ⟨(i 0).val / 5000, hN⟩ (1 : Fin 2) * 64 ≤ (i 1).val ∧ (i 1).val < win1_6.index ⟨(i 0).val / 5000, hN⟩ (1 : Fin 2) * 64 + 64
    rw [a61]; omega

/-- THE NODE REGION'S OUTPUT ARRAY after the region: the node stage of the arrays as the region finds them. -/
theorem node_region (c : Dev nD) :
    (dat1 (F := Ideal) V c).arrAt 6 cfg1.N
      = nodeStage (V c main_v19) (V c main_arg0) (V c main_arg6) (fun h => V c main_v20 (ix2 0 h))
          (V c main_arg8) (fun q => V c main_v21 (ix2 0 q)) :=
  (dat1 V c).arrAt_eq_of_cover 6 _ (fun t _ => node_flushed V c t) node_cover

end Cert.KernelIdeal.Regions

end
-- ==== Proof.KernelValue.lean ====
/-
  The kernel program's result as one function of its argument arrays.

  The program gathers each edge's receiver and sender rows from the node array (indices below zero wrapped once by
  the number of nodes), runs the edge region, adds the new edge rows into a zero array at each edge's receiver
  (a scatter-add), and runs the node region on that aggregate and the node array. The two regions leave the
  whole-array stages of `Cert.MessagePassing` of the arrays they find; the host operations between them are read off
  the program's boundary contents. The gather and the scatter-add are named once and never opened.
-/
import proofs.«165698_j14096082665507_1_alg».proof.Proof.Regions

set_option maxRecDepth 16384

noncomputable section

namespace Cert.KernelIdeal.KernelValue

open Cert.KernelIdeal Cert.KernelIdeal.Gen Cert.KernelIdeal.Regions Cert.MessagePassing
open Idealize.ShloMosaic Idealize.ShloMosaic.TcCoe Idealize.ShloMosaic.ValueIdx Idealize.SL.Sem Idealize.ShloMosaic.StableHlo

/-- Rows of the node array gathered at the indices `idx`, an index below zero wrapped by the number of nodes. -/
def gathered (x : (⟨S50000x64, .f32⟩ : BufTy).Contents (Elt Ideal)) (idx : (⟨S800000, .i32⟩ : BufTy).Contents (Elt Ideal)) :
    (⟨S800000x64, .f32⟩ : BufTy).Contents (Elt Ideal) :=
  Host.gather gather_S50000x64_S800000x1_S800000x64_1_0_n_n_0_1_164 x
    (broadcastInDim S800000x1 ![0] bcast_S800000_S800000x1_0
      (select (cmpi .slt idx (broadcastInDim S800000 ![] bcast_S_S800000 (constantI S_ 32 0#32)))
        (addi idx (broadcastInDim S800000 ![] bcast_S_S800000 (constantI S_ 32 50000#32))) idx))

/-- Edge rows added into a zero array at the rows `idx` names. -/
def aggregated (idx : (⟨S800000, .i32⟩ : BufTy).Contents (Elt Ideal)) (u : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 idx) u

variable (m : (ℓ : Loc nD τ sig) → Buf (Elt Ideal) ℓ) (ρ : Dev nD → PrngReg)

/-- A bias vector reshaped to one row reads, at `(0, h)`, its entry `h`. -/
theorem row_of_vector {n : Nat} (x : (⟨1, ![n]⟩ : Shape).Idx → EReal) (hn : (⟨1, ![n]⟩ : Shape).ShapeCasts (⟨2, ![1, n]⟩ : Shape)) (h : Fin n) :
    shapeCast (⟨2, ![1, n]⟩ : Shape) x hn (ix2 0 h) = x (ix1 h) := by
  refine shapeCast_apply x hn (ix2 0 h) (ix1 h) ?_
  rw [Shape.rowMajor_val_one, Shape.rowMajor_val_two]
  show h.val = 0 * n + h.val
  omega

/-! ## The buffers the edge region finds -/

theorem V1_arg1 (c : Dev nD) : (V1 m ρ c main_arg1 : S800000x64.Idx → EReal) = m ((c : Thread nD τ).loc main_arg1) := by
  show StableHlo.after hostOps0 (W0 m ρ c) (Proc.devRef .tc main_arg1) = _; after_results
theorem V1_arg2 (c : Dev nD) : (V1 m ρ c main_arg2 : S192x128.Idx → EReal) = m ((c : Thread nD τ).loc main_arg2) := by
  show StableHlo.after hostOps0 (W0 m ρ c) (Proc.devRef .tc main_arg2) = _; after_results
theorem V1_arg4 (c : Dev nD) : (V1 m ρ c main_arg4 : S128x64.Idx → EReal) = m ((c : Thread nD τ).loc main_arg4) := by
  show StableHlo.after hostOps0 (W0 m ρ c) (Proc.devRef .tc main_arg4) = _; after_results
theorem V1_v6 (c : Dev nD) : (V1 m ρ c main_v6 : S800000x64.Idx → EReal) = gathered (m ((c : Thread nD τ).loc main_arg0)) (m ((c : Thread nD τ).loc main_arg11)) := by
  show StableHlo.after hostOps0 (W0 m ρ c) (Proc.devRef .tc main_v6) = _; after_results; rfl
theorem V1_v13 (c : Dev nD) : (V1 m ρ c main_v13 : S800000x64.Idx → EReal) = gathered (m ((c : Thread nD τ).loc main_arg0)) (m ((c : Thread nD τ).loc main_arg10)) := by
  show StableHlo.after hostOps0 (W0 m ρ c) (Proc.devRef .tc main_v13) = _; after_results; rfl
theorem V1_v14 (c : Dev nD) : (V1 m ρ c main_v14 : S1x128.Idx → EReal) = shapeCast S1x128 (m ((c : Thread nD τ).loc main_arg3)) shapeCasts_S128_S1x128 := by
  show StableHlo.after hostOps0 (W0 m ρ c) (Proc.devRef .tc main_v14) = _; after_results; rfl
theorem V1_v15 (c : Dev nD) : (V1 m ρ c main_v15 : S1x64.Idx → EReal) = shapeCast S1x64 (m ((c : Thread nD τ).loc main_arg5)) shapeCasts_S64_S1x64 := by
  show StableHlo.after hostOps0 (W0 m ρ c) (Proc.devRef .tc main_v15) = _; after_results; rfl

/-- The new edge rows, as the program's second boundary holds them. -/
theorem new_edges (c : Dev nD) :
    (W2 m ρ c (Proc.devRef .tc main_v16) : S800000x64.Idx → EReal)
      = edgeStage (m ((c : Thread nD τ).loc main_arg1)) (gathered (m ((c : Thread nD τ).loc main_arg0)) (m ((c : Thread nD τ).loc main_arg11))) (gathered (m ((c : Thread nD τ).loc main_arg0)) (m ((c : Thread nD τ).loc main_arg10))) (m ((c : Thread nD τ).loc main_arg2))
          (fun h => m ((c : Thread nD τ).loc main_arg3) (ix1 h)) (m ((c : Thread nD τ).loc main_arg4)) (fun q => m ((c : Thread nD τ).loc main_arg5) (ix1 q)) := by
  refine ((W2_arr m ρ c 7).trans (edge_region (V1 m ρ) c)).trans ?_
  rw [V1_arg1, V1_arg2, V1_arg4, V1_v6, V1_v13, V1_v14, V1_v15]
  have e1 : (fun h : Fin 128 => shapeCast S1x128 (m ((c : Thread nD τ).loc main_arg3)) shapeCasts_S128_S1x128 (ix2 0 h)) = fun h => m ((c : Thread nD τ).loc main_arg3) (ix1 h) :=
    funext fun h => row_of_vector _ _ h
  have e2 : (fun q : Fin 64 => shapeCast S1x64 (m ((c : Thread nD τ).loc main_arg5)) shapeCasts_S64_S1x64 (ix2 0 q)) = fun q => m ((c : Thread nD τ).loc main_arg5) (ix1 q) :=
    funext fun q => row_of_vector _ _ q
  rw [e1, e2]

/-! ## The buffers the node region finds -/

/-- An argument the first stretch and the edge region leave alone holds its launch contents at the second boundary. -/
theorem W2_arg0 (c : Dev nD) : (W2 m ρ c (Proc.devRef .tc main_arg0) : S50000x64.Idx → EReal) = m ((c : Thread nD τ).loc main_arg0) := by
  refine (W2_of_ne m ρ c main_arg0 (by decide)).trans ?_
  show StableHlo.after hostOps0 (W0 m ρ c) (Proc.devRef .tc main_arg0) = _; after_results
theorem W2_arg6 (c : Dev nD) : (W2 m ρ c (Proc.devRef .tc main_arg6) : S128x128.Idx → EReal) = m ((c : Thread nD τ).loc main_arg6) := by
  refine (W2_of_ne m ρ c main_arg6 (by decide)).trans ?_
  show StableHlo.after hostOps0 (W0 m ρ c) (Proc.devRef .tc main_arg6) = _; after_results
theorem W2_arg7 (c : Dev nD) : (W2 m ρ c (Proc.devRef .tc main_arg7) : S128.Idx → EReal) = m ((c : Thread nD τ).loc main_arg7) := by
  refine (W2_of_ne m ρ c main_arg7 (by decide)).trans ?_
  show StableHlo.after hostOps0 (W0 m ρ c) (Proc.devRef .tc main_arg7) = _; after_results
theorem W2_arg8 (c : Dev nD) : (W2 m ρ c (Proc.devRef .tc main_arg8) : S128x64.Idx → EReal) = m ((c : Thread nD τ).loc main_arg8) := by
  refine (W2_of_ne m ρ c main_arg8 (by decide)).trans ?_
  show StableHlo.after hostOps0 (W0 m ρ c) (Proc.devRef .tc main_arg8) = _; after_results
theorem W2_arg9 (c : Dev nD) : (W2 m ρ c (Proc.devRef .tc main_arg9) : S64.Idx → EReal) = m ((c : Thread nD τ).loc main_arg9) := by
  refine (W2_of_ne m ρ c main_arg9 (by decide)).trans ?_
  show StableHlo.after hostOps0 (W0 m ρ c) (Proc.devRef .tc main_arg9) = _; after_results
theorem W2_arg11 (c : Dev nD) : (W2 m ρ c (Proc.devRef .tc main_arg11) : S800000.Idx → BitVec 32) = m ((c : Thread nD τ).loc main_arg11) := by
  refine (W2_of_ne m ρ c main_arg11 (by decide)).trans ?_
  show StableHlo.after hostOps0 (W0 m ρ c) (Proc.devRef .tc main_arg11) = _; after_results

theorem V3_v19 (c : Dev nD) : (V3 m ρ c main_v19 : S50000x64.Idx → EReal)
    = aggregated (W2 m ρ c (Proc.devRef .tc main_arg11)) (W2 m ρ c (Proc.devRef .tc main_v16)) := by
  show StableHlo.after hostOps1 (W2 m ρ c) (Proc.devRef .tc main_v19) = _; after_results; rfl
theorem V3_arg0 (c : Dev nD) : (V3 m ρ c main_arg0 : S50000x64.Idx → EReal) = W2 m ρ c (Proc.devRef .tc main_arg0) := by
  show StableHlo.after hostOps1 (W2 m ρ c) (Proc.devRef .tc main_arg0) = _; after_results
theorem V3_arg6 (c : Dev nD) : (V3 m ρ c main_arg6 : S128x128.Idx → EReal) = W2 m ρ c (Proc.devRef .tc main_arg6) := by
  show StableHlo.after hostOps1 (W2 m ρ c) (Proc.devRef .tc main_arg6) = _; after_results
theorem V3_arg8 (c : Dev nD) : (V3 m ρ c main_arg8 : S128x64.Idx → EReal) = W2 m ρ c (Proc.devRef .tc main_arg8) := by
  show StableHlo.after hostOps1 (W2 m ρ c) (Proc.devRef .tc main_arg8) = _; after_results
theorem V3_v20 (c : Dev nD) : (V3 m ρ c main_v20 : S1x128.Idx → EReal)
    = shapeCast S1x128 (W2 m ρ c (Proc.devRef .tc main_arg7)) shapeCasts_S128_S1x128 := by
  show StableHlo.after hostOps1 (W2 m ρ c) (Proc.devRef .tc main_v20) = _; after_results; rfl
theorem V3_v21 (c : Dev nD) : (V3 m ρ c main_v21 : S1x64.Idx → EReal)
    = shapeCast S1x64 (W2 m ρ c (Proc.devRef .tc main_arg9)) shapeCasts_S64_S1x64 := by
  show StableHlo.after hostOps1 (W2 m ρ c) (Proc.devRef .tc main_v21) = _; after_results; rfl

/-- THE KERNEL PROGRAM'S RESULT, as its last boundary holds it: the node stage of the aggregated new edge rows. -/
theorem result_value (c : Dev nD) :
    (W4 m ρ c (Proc.devRef .tc main_v22) : S50000x64.Idx → EReal)
      = nodeStage
          (aggregated (m ((c : Thread nD τ).loc main_arg11))
            (edgeStage (m ((c : Thread nD τ).loc main_arg1)) (gathered (m ((c : Thread nD τ).loc main_arg0)) (m ((c : Thread nD τ).loc main_arg11))) (gathered (m ((c : Thread nD τ).loc main_arg0)) (m ((c : Thread nD τ).loc main_arg10))) (m ((c : Thread nD τ).loc main_arg2))
              (fun h => m ((c : Thread nD τ).loc main_arg3) (ix1 h)) (m ((c : Thread nD τ).loc main_arg4)) (fun q => m ((c : Thread nD τ).loc main_arg5) (ix1 q))))
          (m ((c : Thread nD τ).loc main_arg0)) (m ((c : Thread nD τ).loc main_arg6)) (fun h => m ((c : Thread nD τ).loc main_arg7) (ix1 h)) (m ((c : Thread nD τ).loc main_arg8)) (fun q => m ((c : Thread nD τ).loc main_arg9) (ix1 q)) := by
  refine ((W4_arr m ρ c 6).trans (node_region (V3 m ρ) c)).trans ?_
  rw [V3_v19, V3_arg0, V3_arg6, V3_arg8, V3_v20, V3_v21, new_edges, W2_arg0, W2_arg6, W2_arg7, W2_arg8, W2_arg9, W2_arg11]
  have e1 : (fun h : Fin 128 => shapeCast S1x128 (m ((c : Thread nD τ).loc main_arg7)) shapeCasts_S128_S1x128 (ix2 0 h)) = fun h => m ((c : Thread nD τ).loc main_arg7) (ix1 h) :=
    funext fun h => row_of_vector _ _ h
  have e2 : (fun q : Fin 64 => shapeCast S1x64 (m ((c : Thread nD τ).loc main_arg9)) shapeCasts_S64_S1x64 (ix2 0 q)) = fun q => m ((c : Thread nD τ).loc main_arg9) (ix1 q) :=
    funext fun q => row_of_vector _ _ q
  rw [e1, e2]

end Cert.KernelIdeal.KernelValue

end
-- ==== Proof.RefValue.lean ====
/-
  The reference program's two dense stages are the message-passing stages of `Cert.MessagePassing`.

  The reference computes an edge's new row as `max (x · W₁ + b₁) 0 · W₂ + b₂` of the joined row
  `x = [edge | receiver | sender]` with whole-array matrix products, and a node's new row the same way from
  `[aggregate | node]`. Read index by index, each matrix product is a finite sum over the joined row's columns,
  a bias broadcast along the rows is the bias entry of the column, and the concatenation picks the piece the column falls in.
-/
import proofs.«165698_j14096082665507_1_alg».proof.Proof.Gen.ReferenceIdeal.Read
import proofs.«165698_j14096082665507_1_alg».proof.Proof.Spec
import proofs.«165698_j14096082665507_1_alg».proof.Proof.LibJoin

noncomputable section

namespace Cert.ReferenceIdeal.RefValue

open Cert.ReferenceIdeal Cert.ReferenceIdeal.Read Cert.MessagePassing
open Idealize.ShloMosaic Idealize.ShloMosaic.ValueIdx

/-! ### The two concatenations, read at a row and a column -/

/-- Row `p`, column `k` of the three-piece concatenation is entry `k` of the edge's row, its receiver's row and
    its sender's row laid side by side. -/
theorem cat3_apply (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (p : Fin 800000) (k : Fin 192) :
    val_main_v14 (F := Ideal) x0 x1 x10 x11 (ix2 p k)
      = join3 (row x1 p) (row (val_main_v6 (F := Ideal) x0 x11) p) (row (val_main_v13 (F := Ideal) x0 x10) p) k := by
  unfold val_main_v14
  exact Cert.LibJoin.concat3_read (R := 800000) x1 _ _ _ p k

/-- Row `p`, column `k` of the two-piece concatenation is entry `k` of the aggregated row and the node's row laid
    side by side. -/
theorem cat2_apply (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (p : Fin 50000) (k : Fin 128) :
    val_main_v27 (F := Ideal) x0 x1 x2 x3 x4 x5 x10 x11 (ix2 p k)
      = join2 (row (val_main_v26 (F := Ideal) x0 x1 x2 x3 x4 x5 x10 x11) p) (row x0 p) k := by
  unfold val_main_v27
  exact Cert.LibJoin.concat2_read (R := 50000) _ x0 _ p k

/-! ### The hidden layers and the results, read at a row and a column -/

/-- Entry `(p, h)` of the edge stage's hidden layer: the rectified first affine map of the joined row. -/
theorem edge_hidden (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x10 x11 : (⟨S800000, .i32⟩ : BufTy).Contents (Elt Ideal)) (p : Fin 800000) (h : Fin 128) :
    val_main_v19 (F := Ideal) x0 x1 x2 x3 x10 x11 (ix2 p h)
      = max ((∑ k : Fin 192, join3 (row x1 p) (row (val_main_v6 (F := Ideal) x0 x11) p) (row (val_main_v13 (F := Ideal) x0 x10) p) k * x2 (ix2 k h)) + x3 (ix1 h))
          (Ideal.ofBits .f32 0x00000000#32) := by
  have e1 : ∀ k : Fin 192, lidx_main_v15 (ix2 p h) k = ix2 p k := fun k => funext fun a => Fin.ext (by
    match a with
    | ⟨0, _⟩ => rfl
    | ⟨1, _⟩ => rfl)
  have e2 : ∀ k : Fin 192, ridx_main_v15 (ix2 p h) k = ix2 k h := fun k => funext fun a => Fin.ext (by
    match a with
    | ⟨0, _⟩ => rfl
    | ⟨1, _⟩ => rfl)
  have e3 : idx_main_v16 (idx_main_v17 (ix2 p h)) = ix1 h := funext fun a => Fin.ext (by
    match a with
    | ⟨0, _⟩ => rfl)
  rw [val_main_v19_apply, val_main_v18_apply, val_main_v15_apply, val_main_call0_v0_apply, val_main_call0_cst_apply,
    val_main_v17_apply, val_main_v16_apply, e3]
  refine congrArg₂ max (congrArg₂ (· + ·) (Finset.sum_congr rfl fun k _ => ?_) rfl) rfl
  rw [e1, e2, cat3_apply]

/-- Entry `(p, h)` of the node stage's hidden layer: the rectified first affine map of the joined row. -/
theorem node_hidden (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x10 x11 : (⟨S800000, .i32⟩ : BufTy).Contents (Elt Ideal)) (p : Fin 50000) (h : Fin 128) :
    val_main_v32 (F := Ideal) x0 x1 x2 x3 x4 x5 x6 x7 x10 x11 (ix2 p h)
      = max ((∑ k : Fin 128, join2 (row (val_main_v26 (F := Ideal) x0 x1 x2 x3 x4 x5 x10 x11) p) (row x0 p) k * x6 (ix2 k h)) + x7 (ix1 h))
          (Ideal.ofBits .f32 0x00000000#32) := by
  have e1 : ∀ k : Fin 128, lidx_main_v28 (ix2 p h) k = ix2 p k := fun k => funext fun a => Fin.ext (by
    match a with
    | ⟨0, _⟩ => rfl
    | ⟨1, _⟩ => rfl)
  have e2 : ∀ k : Fin 128, ridx_main_v28 (ix2 p h) k = ix2 k h := fun k => funext fun a => Fin.ext (by
    match a with
    | ⟨0, _⟩ => rfl
    | ⟨1, _⟩ => rfl)
  have e3 : idx_main_v29 (idx_main_v30 (ix2 p h)) = ix1 h := funext fun a => Fin.ext (by
    match a with
    | ⟨0, _⟩ => rfl)
  rw [val_main_v32_apply, val_main_v31_apply, val_main_v28_apply, val_main_call1_v0_apply, val_main_call1_cst_apply,
    val_main_v30_apply, val_main_v29_apply, e3]
  refine congrArg₂ max (congrArg₂ (· + ·) (Finset.sum_congr rfl fun k _ => ?_) rfl) rfl
  rw [e1, e2, cat2_apply]

/-- The reference's new edge rows (before aggregation) are the edge stage of the edge rows, the gathered receiver
    rows and the gathered sender rows; the gathers stay opaque. -/
theorem edge_stage_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) :
    val_main_v23 (F := Ideal) x0 x1 x2 x3 x4 x5 x10 x11
      = edgeStage x1 (val_main_v6 (F := Ideal) x0 x11) (val_main_v13 (F := Ideal) x0 x10) x2 (fun h => x3 (ix1 h)) x4 (fun j => x5 (ix1 j)) := by
  funext i
  obtain ⟨p, q, rfl⟩ : ∃ (p : Fin 800000) (q : Fin 64), i = ix2 p q := ⟨i 0, i 1, eq_ix2 i⟩
  have e1 : ∀ h : Fin 128, lidx_main_v20 (ix2 p q) h = ix2 p h := fun h => funext fun a => Fin.ext (by
    match a with
    | ⟨0, _⟩ => rfl
    | ⟨1, _⟩ => rfl)
  have e2 : ∀ h : Fin 128, ridx_main_v20 (ix2 p q) h = ix2 h q := fun h => funext fun a => Fin.ext (by
    match a with
    | ⟨0, _⟩ => rfl
    | ⟨1, _⟩ => rfl)
  have e3 : idx_main_v21 (idx_main_v22 (ix2 p q)) = ix1 q := funext fun a => Fin.ext (by
    match a with
    | ⟨0, _⟩ => rfl)
  rw [val_main_v23_apply, val_main_v20_apply, val_main_v22_apply, val_main_v21_apply, e3]
  refine congrArg₂ (· + ·) (Finset.sum_congr rfl fun h _ => ?_) rfl
  rw [e1, e2, edge_hidden]

/-- The reference's result is the node stage of the aggregated edge rows and the node rows; the aggregation
    (a scatter-add) stays opaque. -/
theorem node_stage_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal)) :
    val_main_v36 (F := Ideal) x0 x1 x2 x3 x4 x5 x6 x7 x8 x9 x10 x11
      = nodeStage (val_main_v26 (F := Ideal) x0 x1 x2 x3 x4 x5 x10 x11) x0 x6 (fun h => x7 (ix1 h)) x8 (fun j => x9 (ix1 j)) := by
  funext i
  obtain ⟨p, q, rfl⟩ : ∃ (p : Fin 50000) (q : Fin 64), i = ix2 p q := ⟨i 0, i 1, eq_ix2 i⟩
  have e1 : ∀ h : Fin 128, lidx_main_v33 (ix2 p q) h = ix2 p h := fun h => funext fun a => Fin.ext (by
    match a with
    | ⟨0, _⟩ => rfl
    | ⟨1, _⟩ => rfl)
  have e2 : ∀ h : Fin 128, ridx_main_v33 (ix2 p q) h = ix2 h q := fun h => funext fun a => Fin.ext (by
    match a with
    | ⟨0, _⟩ => rfl
    | ⟨1, _⟩ => rfl)
  have e3 : idx_main_v34 (idx_main_v35 (ix2 p q)) = ix1 q := funext fun a => Fin.ext (by
    match a with
    | ⟨0, _⟩ => rfl)
  rw [val_main_v36_apply, val_main_v33_apply, val_main_v35_apply, val_main_v34_apply, e3]
  refine congrArg₂ (· + ·) (Finset.sum_congr rfl fun h _ => ?_) rfl
  rw [e1, e2, node_hidden]

end Cert.ReferenceIdeal.RefValue

end
-- ==== Proof.Bridge.lean ====
/-
  The two programs' results are one function of the argument arrays.

  The reference's aggregate is the scatter-add, at the receivers, of its new edge rows into a zero array; its new
  edge rows are the edge stage of the edge rows and the gathered receiver and sender rows; its result is the node
  stage of that aggregate and the node rows. The kernel program's result is the same expression: the gathers and
  the scatter-add are the same operations on the same operands in both programs, and stay unopened.
-/
import proofs.«165698_j14096082665507_1_alg».proof.Proof.KernelValue
import proofs.«165698_j14096082665507_1_alg».proof.Proof.RefValue

noncomputable section

namespace Cert.ReferenceIdeal.Bridge

open Cert.ReferenceIdeal Cert.ReferenceIdeal.Read Cert.ReferenceIdeal.RefValue Cert.MessagePassing
open Cert.KernelIdeal.KernelValue (gathered aggregated)
open Idealize.ShloMosaic Idealize.ShloMosaic.ValueIdx

/-- The reference's aggregate is the scatter-add of the edge stage of the gathered rows. -/
theorem aggregate_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) :
    val_main_v26 (F := Ideal) x0 x1 x2 x3 x4 x5 x10 x11
      = aggregated x11 (edgeStage x1 (gathered x0 x11) (gathered x0 x10) x2 (fun h => x3 (ix1 h)) x4 (fun q => x5 (ix1 q))) := by
  unfold val_main_v26
  rw [edge_stage_eq]
  rfl

/-- The reference's result, as the function of the arguments the kernel program's result is. -/
theorem result_eq (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal)) :
    val_main_v36 (F := Ideal) x0 x1 x2 x3 x4 x5 x6 x7 x8 x9 x10 x11
      = nodeStage (aggregated x11 (edgeStage x1 (gathered x0 x11) (gathered x0 x10) x2 (fun h => x3 (ix1 h)) x4 (fun q => x5 (ix1 q))))
          x0 x6 (fun h => x7 (ix1 h)) x8 (fun q => x9 (ix1 q)) := by
  rw [node_stage_eq, aggregate_eq]

end Cert.ReferenceIdeal.Bridge

end
-- ==== Proof.lean ====
/-
  Message passing on a graph: a tiled kernel program against its whole-array reference, over the extended reals.

  Both programs gather each edge's receiver and sender rows of the node array, compute each edge's new row as a
  two-layer perceptron (a rectifier between the layers) of `[edge | receiver | sender]`, add the new edge rows into
  a zero array at the receivers, and compute each node's new row as the same kind of perceptron of
  `[aggregate | node]`. The kernel program runs the two perceptrons as tiled regions (3200 edge rows, then 5000 node
  rows, per grid point) whose bodies cast their matrix operands to a narrower float format before each product; over
  the extended reals a change of float format is the identity and a product into a zero accumulator is the plain
  finite sum, so each region leaves exactly the whole-array stage the reference computes (Proof/Regions.lean,
  Proof/RefValue.lean, both against Proof/Spec.lean). The gathers and the scatter-add are the same host operations on
  the same operands in both programs and are never opened (Proof/Bridge.lean). The two sides are the same finite sums
  in the same order, so no algebraic law of the extended reals is used and the finiteness of the inputs is never needed.

  The frames of the two kernel programs are the generated ones; the reference's frame is its generated run with the
  value dropped; the idealization rewrote nothing, so `preserves` is trivial.
-/
import proofs.«165698_j14096082665507_1_alg».proof.Defs
import proofs.«165698_j14096082665507_1_alg».proof.Proof.Gen.Kernel
import proofs.«165698_j14096082665507_1_alg».proof.Proof.Gen.Kernel.Skeleton
import proofs.«165698_j14096082665507_1_alg».proof.Proof.Gen.Kernel.Launch
import proofs.«165698_j14096082665507_1_alg».proof.Proof.Gen.Kernel.Points
import proofs.«165698_j14096082665507_1_alg».proof.Proof.Gen.Kernel.Frame
import proofs.«165698_j14096082665507_1_alg».proof.Proof.Gen.KernelIdeal
import proofs.«165698_j14096082665507_1_alg».proof.Proof.Gen.KernelIdeal.Skeleton
import proofs.«165698_j14096082665507_1_alg».proof.Proof.Gen.KernelIdeal.Launch
import proofs.«165698_j14096082665507_1_alg».proof.Proof.Gen.KernelIdeal.Points
import proofs.«165698_j14096082665507_1_alg».proof.Proof.Gen.KernelIdeal.Frame
import proofs.«165698_j14096082665507_1_alg».proof.Proof.Gen.ReferenceIdeal
import proofs.«165698_j14096082665507_1_alg».proof.Proof.Gen.ReferenceIdeal.Run
import proofs.«165698_j14096082665507_1_alg».proof.Proof.Gen.ReferenceIdeal.Read
import proofs.«165698_j14096082665507_1_alg».proof.Proof.Gen.Pre_finite_inputs
import proofs.«165698_j14096082665507_1_alg».proof.Proof.NamedRun
import proofs.«165698_j14096082665507_1_alg».proof.Proof.KernelValue
import proofs.«165698_j14096082665507_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the node stage of
    the aggregated edge stage of the argument arrays. -/
theorem algebraic : Cert.algebraic_KernelIdeal_ReferenceIdeal := by
  intro m ρ m' ρ' _ hagree
  refine ⟨fun c => Cert.KernelIdeal.Gen.W4 m ρ c (Proc.devRef .tc Cert.KernelIdeal.main_v22),
    Cert.KernelIdeal.NamedRun.run_named m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  refine (Cert.ReferenceIdeal.Read.val_main_v36_eq (F := Ideal) _ _ _ _ _ _ _ _ _ _ _ _).trans ?_
  exact (Cert.ReferenceIdeal.Bridge.result_eq _ _ _ _ _ _ _ _ _ _ _ _).trans (Cert.KernelIdeal.KernelValue.result_value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
